-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S768x3072 : S_.BroadcastsInDim S768x3072 (![] : Fin 0 → Fin S768x3072.rank)
  reducesTo_S768x3072_S_d0_1 : S768x3072.ReducesTo [0, 1] S_

variable [Facts]

def fn_part1 {F : FTy → Type} [FloatOps F] (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  main_v18

def fn {F : FTy → Type} [FloatOps F] (main_arg0 : FVec F S8x4096x768 .f32) (main_arg1 : FVec F S8 .f32) (main_arg2 : FVec F S3072x8 .f32) (main_arg3 : FVec F S768x3072 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_v13 main_v16
-- ==== Kernel.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S8x4096x8 : Shape := ⟨3, ![8, 4096, 8]⟩
abbrev S1x1x8 : Shape := ⟨3, ![1, 1, 8]⟩
abbrev S32768x8 : Shape := ⟨2, ![32768, 8]⟩
abbrev S8x3072 : Shape := ⟨2, ![8, 3072]⟩
abbrev S3072x768 : Shape := ⟨2, ![3072, 768]⟩
abbrev S32768x768 : Shape := ⟨2, ![32768, 768]⟩
abbrev S1024x8 : Shape := ⟨2, ![1024, 8]⟩
abbrev S1024x768 : Shape := ⟨2, ![1024, 768]⟩
abbrev S1024x3072 : Shape := ⟨2, ![1024, 3072]⟩

abbrev nBuf : Space → Nat
  | .hbm => 18
  | .vmem => 6
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S768x3072, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x8, .bf16⟩
  | .hbm, ⟨11, _⟩ => ⟨S32768x8, .bf16⟩
  | .hbm, ⟨12, _⟩ => ⟨S8x3072, .f32⟩
  | .hbm, ⟨13, _⟩ => ⟨S8x3072, .bf16⟩
  | .hbm, ⟨14, _⟩ => ⟨S3072x768, .f32⟩
  | .hbm, ⟨15, _⟩ => ⟨S3072x768, .bf16⟩
  | .hbm, ⟨16, _⟩ => ⟨S32768x768, .f32⟩
  | .hbm, ⟨17, _⟩ => ⟨S8x4096x768, .f32⟩
  | .local _ .vmem, ⟨0, _⟩ => ⟨S1024x8, .bf16⟩
  | .local _ .vmem, ⟨1, _⟩ => ⟨S1024x8, .bf16⟩
  | .local _ .vmem, ⟨2, _⟩ => ⟨S8x3072, .bf16⟩
  | .local _ .vmem, ⟨3, _⟩ => ⟨S3072x768, .bf16⟩
  | .local _ .vmem, ⟨4, _⟩ => ⟨S1024x768, .f32⟩
  | .local _ .vmem, ⟨5, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x4096x768_S8x4096x8_0_0_0 : S8x4096x768.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bitsLt_bf16_f32 : FTy.bits .bf16 < FTy.bits .f32
  shapeCasts_S8x4096x8_S32768x8 : S8x4096x8.ShapeCasts S32768x8
  transposes_S3072x8_S8x3072_1_0 : S3072x8.Transposes [1, 0] S8x3072
  transposes_S768x3072_S3072x768_1_0 : S768x3072.Transposes [1, 0] S3072x768
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1024x768_S1024x768_0_0 : ∀ a, (![0, 0] : Fin 2 → Nat) a + S1024x768.size a ≤ S1024x768.size a
  h_S1024x768 : 0 < S1024x768.numel
  shapeCasts_S32768x768_S8x4096x768 : S32768x768.ShapeCasts S8x4096x768
  dot_S1024x8_S8x3072_S1024x3072_1_0_0_1_n_n_wf : DotDims.WF S1024x8 S8x3072 S1024x3072 [1] [0] [0] [1] [] []
  dot_S1024x3072_S3072x768_S1024x768_1_0_0_1_n_n_wf : DotDims.WF S1024x3072 S3072x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S32768x8.size a
  hwx0_0 : ∀ i : grid0.Coords, EltTy.bits .bf16 = 32 ∨ (Rect.block (s := S32768x8) S1024x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3072.size a ≤ S8x3072.size a
  hwx0_1 : ∀ i : grid0.Coords, EltTy.bits .bf16 = 32 ∨ (Rect.block (s := S8x3072) S8x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x768.size a ≤ S3072x768.size a
  hwx0_2 : ∀ i : grid0.Coords, EltTy.bits .bf16 = 32 ∨ (Rect.block (s := S3072x768) S3072x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)

variable [Facts₀]

def dot_S1024x8_S8x3072_S1024x3072_1_0_0_1_n_n : DotDims S1024x8 S8x3072 S1024x3072 where
  lhsContracting := [1]
  rhsContracting := [0]
  lhsNonContracting := [0]
  rhsNonContracting := [1]
  lhsBatch := []
  rhsBatch := []
  wf := dot_S1024x8_S8x3072_S1024x3072_1_0_0_1_n_n_wf
def dot_S1024x3072_S3072x768_S1024x768_1_0_0_1_n_n : DotDims S1024x3072 S3072x768 S1024x768 where
  lhsContracting := [1]
  rhsContracting := [0]
  lhsNonContracting := [0]
  rhsNonContracting := [1]
  lhsBatch := []
  rhsBatch := []
  wf := dot_S1024x3072_S3072x768_S1024x768_1_0_0_1_n_n_wf

abbrev win0_0 : Pipeline.Window sig grid0 :=
  Pipeline.Window.ofSpec (Memref.whole main_v7) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3072x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S8 : Shape := ⟨1, ![8]⟩
abbrev S3072x8 : Shape := ⟨2, ![3072, 8]⟩
abbrev S768x3072 : Shape := ⟨2, ![768, 3072]⟩
abbrev S8x4096x8 : Shape := ⟨3, ![8, 4096, 8]⟩
abbrev S1x1x8 : Shape := ⟨3, ![1, 1, 8]⟩
abbrev S8x4096x3072 : Shape := ⟨3, ![8, 4096, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S8, .f32⟩
  | .hbm, ⟨2, _⟩ => ⟨S3072x8, .f32⟩
  | .hbm, ⟨3, _⟩ => ⟨S768x3072, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x3072, .f32⟩
  | .hbm, ⟨11, _⟩ => ⟨S_, .f32⟩
  | .hbm, ⟨12, _⟩ => ⟨S8x4096x3072, .f32⟩
  | .hbm, ⟨13, _⟩ => ⟨S8x4096x3072, .f32⟩
  | .hbm, ⟨14, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x768_S8x4096x8_0_0_0 : S8x4096x768.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x3072 : S_.BroadcastsInDim S8x4096x3072 (![] : Fin 0 → Fin S8x4096x3072.rank)
  dot_S8x4096x8_S3072x8_S8x4096x3072_2_1_01_0_n_n_wf : DotDims.WF S8x4096x8 S3072x8 S8x4096x3072 [2] [1] [0, 1] [0] [] []
  dot_S8x4096x3072_S768x3072_S8x4096x768_2_1_01_0_n_n_wf : DotDims.WF S8x4096x3072 S768x3072 S8x4096x768 [2] [1] [0, 1] [0] [] []

variable [Facts₀]

def dot_S8x4096x8_S3072x8_S8x4096x3072_2_1_01_0_n_n : DotDims S8x4096x8 S3072x8 S8x4096x3072 where
  lhsContracting := [2]
  rhsContracting := [1]
  lhsNonContracting := [0, 1]
  rhsNonContracting := [0]
  lhsBatch := []
  rhsBatch := []
  wf := dot_S8x4096x8_S3072x8_S8x4096x3072_2_1_01_0_n_n_wf
def dot_S8x4096x3072_S768x3072_S8x4096x768_2_1_01_0_n_n : DotDims S8x4096x3072 S768x3072 S8x4096x768 where
  lhsContracting := [2]
  rhsContracting := [1]
  lhsNonContracting := [0, 1]
  rhsNonContracting := [0]
  lhsBatch := []
  rhsBatch := []
  wf := dot_S8x4096x3072_S768x3072_S8x4096x768_2_1_01_0_n_n_wf

class Facts : Prop extends Facts₀ where

variable [Facts]
-- ==== Proof.Spec.lean ====
/-
  The feed-forward block on eight rotated features, as ONE function of the four argument arrays.

  Of each token's 768 channels only the first eight are read. With x the tokens [8, 4096, 768], θ the eight
  angles, W1 the up-projection [3072, 8] and W2 the down-projection [768, 3072]:

    feature (b, s, q) = cos x(b, s, q) · cos θ(q)                      q < 8
    hidden  (b, s, f) = max (Σ_q feature (b, s, q) · W1(f, q), 0)      f < 3072
    out     (b, s, e) = Σ_f hidden (b, s, f) · W2(e, f)                e < 768

  over the extended reals, the zero kept as the word it is printed as. Both programs compute this function: the
  reference contracts the last axis of the token array in place, the kernel flattens (b, s) to one row index
  4096·b + s, transposes the two weight matrices beforehand and works through the rows 1024 at a time.
-/
import Idealize.ShloMosaic.PureOps.Ideal
import Idealize.ShloMosaic.Lib.ValueIdx

noncomputable section

namespace Cert.RotFfn

open Idealize.ShloMosaic Idealize.ShloMosaic.ValueIdx

/-- The token array: batch, position, channel. -/
abbrev Tok : Shape := ⟨3, ![8, 4096, 768]⟩
/-- The eight angles. -/
abbrev Ang : Shape := ⟨1, ![8]⟩
/-- The up-projection: hidden unit, feature. -/
abbrev Up : Shape := ⟨2, ![3072, 8]⟩
/-- The down-projection: output channel, hidden unit. -/
abbrev Down : Shape := ⟨2, ![768, 3072]⟩

/-- Feature `q` is read from channel `q` of the 768. -/
abbrev chan (q : Fin 8) : Fin 768 := ⟨q.val, by have := q.isLt; omega⟩

/-- The rotated feature: the product of the cosines of the token's channel and of the angle. -/
def feature (x : FVec Ideal Tok .f32) (θ : FVec Ideal Ang .f32) (b : Fin 8) (s : Fin 4096) (q : Fin 8) : EReal :=
  Ideal.cos (x (ix3 b s (chan q))) * Ideal.cos (θ (ix1 q))

/-- The hidden unit: the features against row `f` of the up-projection, cut below at zero. -/
def hidden (x : FVec Ideal Tok .f32) (θ : FVec Ideal Ang .f32) (W1 : FVec Ideal Up .f32)
    (b : Fin 8) (s : Fin 4096) (f : Fin 3072) : EReal :=
  max (∑ q : Fin 8, feature x θ b s q * W1 (ix2 f q)) (Ideal.ofBits .f32 0x00000000#32)

/-- The block's output: the hidden units against row `e` of the down-projection. -/
def out (x : FVec Ideal Tok .f32) (θ : FVec Ideal Ang .f32) (W1 : FVec Ideal Up .f32) (W2 : FVec Ideal Down .f32) :
    FVec Ideal Tok .f32 :=
  fun i => ∑ f : Fin 3072, hidden x θ W1 (i 0) (i 1) f * W2 (ix2 (i 2) f)

end Cert.RotFfn

end
-- ==== Proof.RefIsSpec.lean ====
/-
  The reference computes the block's function.

  Read one operation at a time, the reference's result at (b, s, e) is the sum over the hidden axis of
  max (Σ_q cos x(b, s, q) · cos θ(q) · W1(f, q), 0) · W2(e, f): the slice keeps channel q of the token where it was,
  the two broadcasts of cos θ read angle q at every (b, s), and each contraction pairs the last axis of its left
  operand with the second axis of the weight matrix. That is `RotFfn.out` term for term.
-/
import proofs.«157197_j65481071403168_1_alg».proof.Proof.Gen.ReferenceIdeal.Read
import proofs.«157197_j65481071403168_1_alg».proof.Proof.Spec

noncomputable section

namespace Cert.RotFfn.Ref

open Idealize.ShloMosaic Idealize.ShloMosaic.ValueIdx Cert.ReferenceIdeal Cert.ReferenceIdeal.Read

/-- The product of cosines the reference forms at (b, s, q) is the rotated feature. -/
theorem features_apply (x : FVec Ideal Tok .f32) (θ : FVec Ideal Ang .f32) (b : Fin 8) (s : Fin 4096) (q : Fin 8) :
    val_main_v5 (F := Ideal) x θ (ix3 b s q) = feature x θ b s q := by
  rw [val_main_v5_apply, val_main_v1_apply, val_main_v0_apply, val_main_v4_apply, val_main_v3_apply, val_main_v2_apply]
  have e0 : idx_main_v0 (ix3 b s q) = ix3 b s (chan q) := by
    funext a; match a with | ⟨0, _⟩ => rfl | ⟨1, _⟩ => rfl | ⟨2, _⟩ => rfl
  have e1 : idx_main_v3 (idx_main_v4 (ix3 b s q)) = ix1 q := by
    funext a; match a with | ⟨0, _⟩ => rfl
  rw [e0, e1]
  rfl

/-- The reference's hidden activation at (b, s, f) is the hidden unit. -/
theorem hidden_apply (x : FVec Ideal Tok .f32) (θ : FVec Ideal Ang .f32) (W1 : FVec Ideal Up .f32)
    (b : Fin 8) (s : Fin 4096) (f : Fin 3072) :
    val_main_v7 (F := Ideal) x θ W1 (ix3 b s f) = hidden x θ W1 b s f := by
  rw [val_main_v7_apply, val_main_v6_apply, val_main_call0_v0_apply, val_main_call0_cst_apply]
  unfold hidden
  show max (∑ k : Fin 8, _) (Ideal.ofBits .f32 0x00000000#32) = _
  refine congrArg (max · _) (Finset.sum_congr rfl fun q _ => ?_)
  have el : lidx_main_v6 (ix3 b s f) q = ix3 b s q := by
    funext a; match a with | ⟨0, _⟩ => rfl | ⟨1, _⟩ => rfl | ⟨2, _⟩ => rfl
  have er : ridx_main_v6 (ix3 b s f) q = ix2 f q := by
    funext a; match a with | ⟨0, _⟩ => rfl | ⟨1, _⟩ => rfl
  rw [el, er, features_apply]

/-- The reference's result array is the block's function of the four arguments. -/
theorem result_eq (x : FVec Ideal Tok .f32) (θ : FVec Ideal Ang .f32) (W1 : FVec Ideal Up .f32) (W2 : FVec Ideal Down .f32) :
    val_main_v8 (F := Ideal) x θ W1 W2 = out x θ W1 W2 := by
  funext i
  obtain ⟨b, s, e, rfl⟩ : ∃ (b : Fin 8) (s : Fin 4096) (e : Fin 768), i = ix3 b s e := ⟨i 0, i 1, i 2, eq_ix3 i⟩
  rw [val_main_v8_apply]
  show _ = ∑ f : Fin 3072, hidden x θ W1 b s f * W2 (ix2 e f)
  refine Finset.sum_congr rfl fun f _ => ?_
  have el : lidx_main_v8 (ix3 b s e) f = ix3 b s f := by
    funext a; match a with | ⟨0, _⟩ => rfl | ⟨1, _⟩ => rfl | ⟨2, _⟩ => rfl
  have er : ridx_main_v8 (ix3 b s e) f = ix2 e f := by
    funext a; match a with | ⟨0, _⟩ => rfl | ⟨1, _⟩ => rfl
  rw [el, er, hidden_apply]

end Cert.RotFfn.Ref

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Tile.lean ====
/-
  One tile of the kernel: 1024 rows of features against the two transposed weight matrices.

  The body multiplies the tile of features z [1024, 8] by the transposed up-projection a [8, 3072], cuts the
  product below at zero, and multiplies the result by the transposed down-projection b [3072, 768]. At the ideal
  values each product into a zero accumulator is the plain sum over the contracted coordinate and the changes of
  float format are the identity, so the tile's entry (p, e) is
    Σ_f max (Σ_q z(p, q) · a(q, f), 0) · b(f, e).
-/
import proofs.«157197_j65481071403168_1_alg».proof.Proof.Gen.KernelIdeal.Skeleton
import proofs.«157197_j65481071403168_1_alg».proof.Proof.LibDenseLayer
import Idealize.ShloMosaic.Lib.Pipeline.Value
import Idealize.ShloMosaic.Lib.ValueIdx

noncomputable section

namespace Cert.RotFfn.Tile

open Idealize.ShloMosaic Idealize.ShloMosaic.ValueIdx Cert.KernelIdeal Cert.KernelIdeal.Gen

/-- The tile's entry (p, e) as a function of the three blocks the body loads. -/
def entry (z : Vec Ideal S1024x8 .bf16) (a : Vec Ideal S8x3072 .bf16) (b : Vec Ideal S3072x768 .bf16)
    (p : Fin 1024) (e : Fin 768) : EReal :=
  ∑ f : Fin 3072, max (∑ q : Fin 8, z (ix2 p q) * a (ix2 q f)) (Ideal.ofBits .f32 0x00000000#32) * b (ix2 f e)

/-- The value the body stores, read at (p, e), is the tile's entry. -/
theorem payload_apply (z : Vec Ideal S1024x8 .bf16) (a : Vec Ideal S8x3072 .bf16) (b : Vec Ideal S3072x768 .bf16)
    (p : Fin 1024) (e : Fin 768) :
    k0_pay1 (F := Ideal) z a b (ix2 p e) = entry z a b p e := by
  unfold k0_pay1 entry
  refine (DenseLayer.matmul_rows_apply Gen.dot_S1024x3072_S3072x768_S1024x768_1_0_0_1_n_n_wf none _ _ p e).trans ?_
  refine Finset.sum_congr rfl fun f _ => ?_
  simp only [shapeCast_self]
  refine congrArg (fun t : EReal => t * b (ix2 f e)) ?_
  show max (FloatOps.matmul _ none _ _ (constant S1024x3072 .f32 0x00000000#32) (ix2 p f))
      (Ideal.ofBits .f32 0x00000000#32) = _
  refine congrArg (fun t : EReal => max t (Ideal.ofBits .f32 0x00000000#32)) ?_
  exact DenseLayer.matmul_rows_apply Gen.dot_S1024x8_S8x3072_S1024x3072_1_0_0_1_n_n_wf none _ _ p f

end Cert.RotFfn.Tile

end
-- ==== Proof.Staged.lean ====
/-
  The three arrays the kernel's region is launched on, read at an entry.

  Before the region the host forms the features exactly as the reference does (slice, cosines, the angle
  broadcast over batch and position, the product), changes their float format (the identity on the ideal values)
  and flattens (b, s, q) to rows: row 4096·b + s, column q. It transposes the two weight matrices: the
  up-projection is launched as [8, 3072], read at (q, f) where the argument has (f, q); the down-projection as
  [3072, 768], read at (f, e) where the argument has (e, f).
-/
import proofs.«157197_j65481071403168_1_alg».proof.Proof.Gen.KernelIdeal.Frame
import proofs.«157197_j65481071403168_1_alg».proof.Proof.Spec
import Idealize.ShloMosaic.Lib.StableHlo.Run
import Idealize.ShloMosaic.Lib.Pipeline.Value
import Idealize.ShloMosaic.Lib.ValueIdx

noncomputable section

namespace Cert.RotFfn.Staged

open Idealize.ShloMosaic Idealize.ShloMosaic.TcCoe Idealize.ShloMosaic.ValueIdx Idealize.SL.Sem
open Cert.KernelIdeal Cert.KernelIdeal.Gen

/-! ## The host's operations before the region, read at an entry -/

/-- The product of cosines at (b, s, q): channel q of the token, angle q. -/
theorem cosines_apply (x : FVec Ideal Tok .f32) (θ : FVec Ideal Ang .f32)
    (hs : S8x4096x768.Slices ![0, 0, 0] S8x4096x8) (h1 : S8.BroadcastsInDim S1x1x8 (![2] : Fin 1 → Fin S1x1x8.rank))
    (h2 : S1x1x8.BroadcastsInDim S8x4096x8 (![0, 1, 2] : Fin 3 → Fin S8x4096x8.rank))
    (b : Fin 8) (s : Fin 4096) (q : Fin 8) :
    mulf (Host.cos (F := Ideal) (extractStridedSlice S8x4096x8 ![0, 0, 0] x hs))
        (broadcastInDim S8x4096x8 ![0, 1, 2] h2 (broadcastInDim S1x1x8 ![2] h1 (Host.cos (F := Ideal) θ))) (ix3 b s q)
      = feature x θ b s q := by
  show Ideal.cos (extractStridedSlice S8x4096x8 ![0, 0, 0] x hs (ix3 b s q))
      * broadcastInDim S8x4096x8 ![0, 1, 2] h2 (broadcastInDim S1x1x8 ![2] h1 (Host.cos (F := Ideal) θ)) (ix3 b s q) = _
  rw [extractStridedSlice_apply ![0, 0, 0] x hs (ix3 b s q) (ix3 b s (chan q)) (fun a => match a with
      | ⟨0, _⟩ => by show b.val = 0 + b.val; omega
      | ⟨1, _⟩ => by show s.val = 0 + s.val; omega
      | ⟨2, _⟩ => by show q.val = 0 + q.val; omega),
    broadcastInDim_apply ![0, 1, 2] h2 _ (ix3 b s q) (ix3 (0 : Fin 1) (0 : Fin 1) q) (fun a => match a with
      | ⟨0, _⟩ => by show 0 = if (1 : Nat) = 1 then 0 else b.val; rw [if_pos rfl]
      | ⟨1, _⟩ => by show 0 = if (1 : Nat) = 1 then 0 else s.val; rw [if_pos rfl]
      | ⟨2, _⟩ => by show q.val = if (8 : Nat) = 1 then 0 else q.val; rw [if_neg (by decide)]),
    broadcastInDim_apply ![2] h1 _ (ix3 (0 : Fin 1) (0 : Fin 1) q) (ix1 q) (fun a => match a with
      | ⟨0, _⟩ => by show q.val = if (8 : Nat) = 1 then 0 else q.val; rw [if_neg (by decide)])]
  rfl

/-- Row 4096·b + s of the flattened features, column q, is entry (b, s, q). -/
theorem flatten_apply (y : FVec Ideal S8x4096x8 .bf16) (h : S8x4096x8.ShapeCasts S32768x8)
    (b : Fin 8) (s : Fin 4096) (q : Fin 8) (hr : b.val * 4096 + s.val < 32768) :
    shapeCast S32768x8 y h (ix2 ⟨b.val * 4096 + s.val, hr⟩ q) = y (ix3 b s q) :=
  shapeCast_apply y h _ (ix3 b s q) (by rw [Shape.rowMajor_val_three, Shape.rowMajor_val_two]; rfl)

/-- A matrix transposed, read at (a, b), is the matrix at (b, a). -/
theorem swap_apply {n0 n1 : Nat} (w : FVec Ideal ⟨2, ![n0, n1]⟩ .f32)
    (h : (⟨2, ![n0, n1]⟩ : Shape).Transposes [1, 0] ⟨2, ![n1, n0]⟩) (a : Fin n1) (b : Fin n0) :
    transpose ⟨2, ![n1, n0]⟩ [1, 0] w h (ix2 a b) = w (ix2 b a) :=
  transpose_apply [1, 0] w h (ix2 a b) (ix2 b a) (fun d => match d with | ⟨0, _⟩ => rfl | ⟨1, _⟩ => rfl)

/-! ## The region's three input arrays -/

variable (m : (ℓ : Loc nD τ sig) → Buf (Elt Ideal) ℓ)

/-- The four argument arrays on core `c`. -/
abbrev tok (c : Dev nD) : FVec Ideal Tok .f32 := m ((c : Thread nD τ).loc main_arg0)
abbrev ang (c : Dev nD) : FVec Ideal Ang .f32 := m ((c : Thread nD τ).loc main_arg1)
abbrev up (c : Dev nD) : FVec Ideal Up .f32 := m ((c : Thread nD τ).loc main_arg2)
abbrev down (c : Dev nD) : FVec Ideal Down .f32 := m ((c : Thread nD τ).loc main_arg3)

/-- The feature rows as the region finds them: row 4096·b + s, column q, is the rotated feature (b, s, q). -/
theorem rows_apply (c : Dev nD) (b : Fin 8) (s : Fin 4096) (q : Fin 8) (hr : b.val * 4096 + s.val < 32768) :
    (V m c main_v7 : S32768x8.Idx → EReal) (ix2 ⟨b.val * 4096 + s.val, hr⟩ q) = feature (tok m c) (ang m c) b s q := by
  have e : (V m c main_v7 : S32768x8.Idx → EReal)
      = shapeCast S32768x8 (truncf .bf16 (mulf (Host.cos (F := Ideal) (extractStridedSlice S8x4096x8 ![0, 0, 0] (tok m c) slices_S8x4096x768_S8x4096x8_0_0_0))
          (broadcastInDim S8x4096x8 ![0, 1, 2] bcast_S1x1x8_S8x4096x8_0_1_2 (broadcastInDim S1x1x8 ![2] bcast_S8_S1x1x8_2 (Host.cos (F := Ideal) (ang m c)))))
          bitsLt_bf16_f32) shapeCasts_S8x4096x8_S32768x8 := by
    show StableHlo.after hostOps0 (fun b => m (c, b)) (Proc.devRef .tc main_v7) = _
    after_results
    rfl
  rw [e, flatten_apply]
  exact cosines_apply (tok m c) (ang m c) _ _ _ b s q

/-- The up-projection as the region finds it: entry (q, f) is the argument's (f, q). -/
theorem upT_apply (c : Dev nD) (q : Fin 8) (f : Fin 3072) :
    (V m c main_v9 : S8x3072.Idx → EReal) (ix2 q f) = up m c (ix2 f q) := by
  have e : (V m c main_v9 : S8x3072.Idx → EReal)
      = truncf .bf16 (transpose S8x3072 [1, 0] (up m c) transposes_S3072x8_S8x3072_1_0) bitsLt_bf16_f32 := by
    show StableHlo.after hostOps0 (fun b => m (c, b)) (Proc.devRef .tc main_v9) = _
    after_results
  rw [e]
  exact swap_apply (up m c) _ q f

/-- The down-projection as the region finds it: entry (f, e) is the argument's (e, f). -/
theorem downT_apply (c : Dev nD) (f : Fin 3072) (e : Fin 768) :
    (V m c main_v11 : S3072x768.Idx → EReal) (ix2 f e) = down m c (ix2 e f) := by
  have e' : (V m c main_v11 : S3072x768.Idx → EReal)
      = truncf .bf16 (transpose S3072x768 [1, 0] (down m c) transposes_S768x3072_S3072x768_1_0) bitsLt_bf16_f32 := by
    show StableHlo.after hostOps0 (fun b => m (c, b)) (Proc.devRef .tc main_v11) = _
    after_results
  rw [e']
  exact swap_apply (down m c) _ f e

end Cert.RotFfn.Staged

end
-- ==== Proof.Region.lean ====
/-
  What the kernel's program ends holding in its result.

  The region works through the 32768 feature rows 1024 at a time. At grid point t the body sees rows
  1024·t … 1024·t + 1023 of the features and the two transposed weight matrices whole, and writes rows
  1024·t … 1024·t + 1023 of the output. A tile's entry depends only on its own row of features, so every tile is
  the restriction of ONE function of the three input arrays,
    rowsOut (r, e) = Σ_f max (Σ_q Z(r, q) · A(q, f), 0) · B(f, e),
  and the 32 tiles cover the output array: row r is in tile r / 1024. After the region the host reshapes the
  [32768, 768] array to [8, 4096, 768]: entry (b, s, e) is row 4096·b + s, column e. With the three input arrays
  read back to the arguments this is the block's function `RotFfn.out`.
-/
import proofs.«157197_j65481071403168_1_alg».proof.Proof.Gen.KernelIdeal.Frame
import proofs.«157197_j65481071403168_1_alg».proof.Proof.Spec
import proofs.«157197_j65481071403168_1_alg».proof.Proof.Tile
import proofs.«157197_j65481071403168_1_alg».proof.Proof.Staged
import Idealize.ShloMosaic.Lib.StableHlo.Run
import Idealize.ShloMosaic.Lib.Pipeline.Value
import Idealize.ShloMosaic.Lib.ValueIdx

set_option maxRecDepth 16384

noncomputable section

namespace Cert.RotFfn.Region

open Idealize.ShloMosaic Idealize.ShloMosaic.TcCoe Idealize.ShloMosaic.ValueIdx Idealize.SL.Sem
open Idealize.ShloMosaic.Pipeline (Dat)
open Cert.KernelIdeal Cert.KernelIdeal.Gen Cert.RotFfn.Staged

/-! ## The output array as one function of the three input arrays -/

/-- Row `r`, channel `e` of the output, from the feature rows and the two transposed weight matrices. -/
def rowsOutAt (Z : Vec Ideal S32768x8 .bf16) (A : Vec Ideal S8x3072 .bf16) (B : Vec Ideal S3072x768 .bf16)
    (r : Fin 32768) (e : Fin 768) : EReal :=
  ∑ f : Fin 3072, max (∑ q : Fin 8, Z (ix2 r q) * A (ix2 q f)) (Ideal.ofBits .f32 0x00000000#32) * B (ix2 f e)

/-- The whole output array. -/
def rowsOut (Z : Vec Ideal S32768x8 .bf16) (A : Vec Ideal S8x3072 .bf16) (B : Vec Ideal S3072x768 .bf16) :
    Vec Ideal S32768x768 .f32 :=
  fun i => rowsOutAt Z A B (i 0) (i 1)

variable (m : (ℓ : Loc nD τ sig) → Buf (Elt Ideal) ℓ) (ρ : Dev nD → PrngReg)

/-! ## The blocks at a grid point -/

theorem offsets_zero : (![0, 0] : Fin 2 → Nat) = fun _ => 0 := funext fun a => by fin_cases a <;> rfl

/-- The printed index maps over the grid: the feature window and the output window are at block row `t`, block
    column 0; the two weight windows stay at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 32 points, so a tile's rows are rows of the array. -/
theorem row_lt (t : Fin cfg0.N) (p : Fin 1024) : t.val * 1024 + p.val < 32768 := by
  have ht : t.val < 32 := Nat.lt_of_lt_of_eq t.isLt N_0
  have hp := p.isLt
  omega

/-- The feature window's block at point `t` is rows 1024·t … of the feature array. -/
theorem rows_blk (c : Dev nD) (t : Fin cfg0.N) (p : Fin 1024) (q : Fin 8) :
    (iblk m c 0 t : Vec Ideal S1024x8 .bf16) (ix2 p q)
      = (V m c main_v7 : S32768x8.Idx → EReal) (ix2 ⟨t.val * 1024 + p.val, row_lt t p⟩ q) := by
  obtain ⟨e0, e1, -⟩ := block_indices t
  show V m c main_v7 (((cfg0.win 0).blk t).view.emb (ix2 p q)) = V m c main_v7 _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 8 + 1 * q.val = q.val; omega

/-- The up-projection window's block is the whole transposed matrix. -/
theorem up_blk (c : Dev nD) (t : Fin cfg0.N) (q : Fin 8) (f : Fin 3072) :
    (iblk m c 1 t : Vec Ideal S8x3072 .bf16) (ix2 q f) = (V m c main_v9 : S8x3072.Idx → EReal) (ix2 q f) := by
  obtain ⟨-, -, e2, e3, -⟩ := block_indices t
  show V m c main_v9 (((cfg0.win 1).blk t).view.emb (ix2 q f)) = V m c main_v9 _
  refine congrArg _ (funext fun a => Fin.ext ?_)
  match a with
  | ⟨0, _⟩ => show win0_1.index t (0 : Fin 2) * 8 + 1 * q.val = q.val; omega
  | ⟨1, _⟩ => show win0_1.index t (1 : Fin 2) * 3072 + 1 * f.val = f.val; omega

/-- The down-projection window's block is the whole transposed matrix. -/
theorem down_blk (c : Dev nD) (t : Fin cfg0.N) (f : Fin 3072) (e : Fin 768) :
    (iblk m c 2 t : Vec Ideal S3072x768 .bf16) (ix2 f e) = (V m c main_v11 : S3072x768.Idx → EReal) (ix2 f e) := by
  obtain ⟨-, -, -, -, e4, e5, -⟩ := block_indices t
  show V m c main_v11 (((cfg0.win 2).blk t).view.emb (ix2 f e)) = V m c main_v11 _
  refine congrArg _ (funext fun a => Fin.ext ?_)
  match a with
  | ⟨0, _⟩ => show win0_2.index t (0 : Fin 2) * 3072 + 1 * f.val = f.val; omega
  | ⟨1, _⟩ => show win0_2.index t (1 : Fin 2) * 768 + 1 * e.val = e.val; omega

/-- Entry (p, e) of the output window's block at point `t` sits at row 1024·t + p, column e of the array. -/
theorem out_emb (t : Fin cfg0.N) (p : Fin 1024) (e : Fin 768) :
    (((cfg0.win 3).blk t).view.emb (ix2 p e) : S32768x768.Idx) = ix2 ⟨t.val * 1024 + p.val, row_lt t p⟩ e := by
  obtain ⟨-, -, -, -, -, -, e6, e7⟩ := block_indices t
  refine funext fun a => Fin.ext ?_
  match a with
  | ⟨0, _⟩ => show win0_3.index t (0 : Fin 2) * 1024 + 1 * p.val = t.val * 1024 + p.val; omega
  | ⟨1, _⟩ => show win0_3.index t (1 : Fin 2) * 768 + 1 * e.val = e.val; omega

/-! ## What a point writes back, the cover, the array after the region -/

/-- What point `t` writes back is block `t` of `rowsOut` of the three input arrays as the region finds them. -/
theorem flushed_eq (c : Dev nD) (t : Fin cfg0.N) :
    (dats m 0 c).flushed 3 t
      = ((cfg0.win 3).blk t).view.read (Elt Ideal) (rowsOut (V m c main_v7) (V m c main_v9) (V m c main_v11)) := by
  show (cfg0.win 3).cut (grid0.coords t) ((dats m 0 c).after 3 t) = _
  rw [after0_3]
  unfold out0_3
  rw [View.canon_unit_zero offsets_zero]
  simp only [View.ld_unit_zero (S := S1024x8) offsets_zero, View.ld_unit_zero (S := S8x3072) offsets_zero,
    View.ld_unit_zero (S := S3072x768) offsets_zero]
  funext j
  obtain ⟨p, e, rfl⟩ : ∃ (p : Fin 1024) (e : Fin 768), j = ix2 p e := ⟨j 0, j 1, eq_ix2 j⟩
  show k0_pay1 (F := Ideal) (iblk m c 0 t) (iblk m c 1 t) (iblk m c 2 t) (ix2 p e)
    = rowsOut (V m c main_v7) (V m c main_v9) (V m c main_v11) (((cfg0.win 3).blk t).view.emb (ix2 p e))
  refine (Tile.payload_apply (iblk m c 0 t) (iblk m c 1 t) (iblk m c 2 t) p e).trans ?_
  rw [out_emb t p e]
  show Tile.entry (iblk m c 0 t) (iblk m c 1 t) (iblk m c 2 t) p e
    = rowsOutAt (V m c main_v7) (V m c main_v9) (V m c main_v11) ⟨t.val * 1024 + p.val, row_lt t p⟩ e
  unfold Tile.entry rowsOutAt
  refine Finset.sum_congr rfl fun f _ => ?_
  rw [down_blk m c t f e]
  refine congrArg (fun u : EReal => max u (Ideal.ofBits .f32 0x00000000#32) * (V m c main_v11 : S3072x768.Idx → EReal) (ix2 f e)) ?_
  refine Finset.sum_congr rfl fun q _ => ?_
  rw [rows_blk m c t p q, up_blk m c t q f]

/-- An index of the output array is in point `t`'s block iff each coordinate is in the block's range. -/
theorem mem_blk (t : Fin cfg0.N) (i : S32768x768.Idx) :
    i ∈ ((cfg0.win 3).blk t).view.set ↔ ∀ a : Fin 2, win0_3.index t a * S1024x768.size a ≤ (i a).val
      ∧ (i a).val < win0_3.index t a * S1024x768.size a + S1024x768.size a := by
  show i ∈ ((View.whole main_v12).slice (win0_3.rect t)).set ↔ _
  rw [View.set_slice_whole, Rect.mem_set_unit]
  exact Iff.rfl

/-- Every entry of the output array is written back by some point: row `r` by point `r / 1024`. -/
theorem cover (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  obtain ⟨t, ht⟩ : ∃ t : Fin cfg0.N, t.val = (i 0).val / 1024 :=
    ⟨⟨(i 0).val / 1024, Nat.lt_of_lt_of_eq (by omega : (i 0).val / 1024 < 32) N_0.symm⟩, rfl⟩
  obtain ⟨-, -, -, -, -, -, e6, e7⟩ := block_indices t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 768 ≤ (i 1).val ∧ (i 1).val < win0_3.index t (1 : Fin 2) * 768 + 768
    omega

/-- The output array after the region. -/
theorem final (c : Dev nD) :
    (dats m 0 c).arrAt 3 cfg0.N = rowsOut (V m c main_v7) (V m c main_v9) (V m c main_v11) :=
  (dats m 0 c).arrAt_eq_of_cover 3 _ (fun t _ => flushed_eq m c t) cover

/-! ## The program's result -/

/-- Row 4096·b + s, channel e of the region's output is the block's function at (b, s, e). -/
theorem rowsOut_apply (c : Dev nD) (b : Fin 8) (s : Fin 4096) (e : Fin 768) (hr : b.val * 4096 + s.val < 32768) :
    rowsOutAt (V m c main_v7) (V m c main_v9) (V m c main_v11) ⟨b.val * 4096 + s.val, hr⟩ e
      = out (tok m c) (ang m c) (up m c) (down m c) (ix3 b s e) := by
  show _ = ∑ f : Fin 3072, hidden (tok m c) (ang m c) (up m c) b s f * down m c (ix2 e f)
  unfold rowsOutAt hidden
  refine Finset.sum_congr rfl fun f _ => ?_
  rw [downT_apply m c f e]
  refine congrArg (fun u : EReal => max u (Ideal.ofBits .f32 0x00000000#32) * down m c (ix2 e f)) ?_
  refine Finset.sum_congr rfl fun q _ => ?_
  rw [rows_apply m c b s q hr, upT_apply m c q f]

/-- The result buffer after the host's closing reshape is the block's function of the four arguments. -/
theorem result_eq (c : Dev nD) :
    (Pipeline.afterTail₀ cfgs (dats m) 0 (V0 m) [hostOps1] c main_v13 : S8x4096x768.Idx → EReal)
      = out (tok m c) (ang m c) (up m c) (down m c) := by
  unfold Pipeline.afterTail₀
  show StableHlo.after hostOps1 _ (Proc.devRef .tc main_v13) = _
  after_results
  funext i
  obtain ⟨b, s, e, rfl⟩ : ∃ (b : Fin 8) (s : Fin 4096) (e : Fin 768), i = ix3 b s e := ⟨i 0, i 1, i 2, eq_ix3 i⟩
  have hr : b.val * 4096 + s.val < 32768 := by have := b.isLt; have := s.isLt; omega
  have hw : Pipeline.withArrays (cfgs 0).spec c (V0 m c) (fun w => (dats m 0 c).arrAt w (cfgs 0).N) (Proc.devRef .tc main_v12)
      = rowsOut (V m c main_v7) (V m c main_v9) (V m c main_v11) :=
    (Pipeline.withArrays_arr spec0 launch0.win.arr_inj c (V0 m c) _ 3).trans (final m c)
  show shapeCast S8x4096x768 (Pipeline.withArrays (cfgs 0).spec c (V0 m c) (fun w => (dats m 0 c).arrAt w (cfgs 0).N)
      (Proc.devRef .tc main_v12)) shapeCasts_S32768x768_S8x4096x768 (ix3 b s e) = _
  rw [hw, shapeCast_apply _ shapeCasts_S32768x768_S8x4096x768 (ix3 b s e) (ix2 ⟨b.val * 4096 + s.val, hr⟩ e)
    (by rw [Shape.rowMajor_val_two, Shape.rowMajor_val_three]; rfl)]
  exact rowsOut_apply m c b s e hr

/-- The kernel's run, read: the result buffer holds the block's function of the four arguments, which end as
    launched. -/
theorem run : θ_run defs (onTc (τ := τ) (main (F := Ideal))) ⟨m, fun _ => 0, ρ⟩ fun r => ∀ c : Dev nD,
      r.2.mem ((c.tc : Thread nD τ).loc main_v13) = out (tok m c) (ang m c) (up m c) (down m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.RotFfn.Region

end
-- ==== Proof.lean ====
/-
  A feed-forward block on eight rotated features: the tiled kernel and its reference compute one function.

  Of each token's 768 channels the first eight are rotated, feature(b, s, q) = cos x(b, s, q) · cos θ(q); the hidden
  layer is max (Σ_q feature(b, s, q) · W1(f, q), 0) over 3072 units and the output Σ_f hidden(b, s, f) · W2(e, f) over 768
  channels (Proof/Spec.lean, `RotFfn.out`).

  The reference contracts the token array's last axis in place (Proof/RefIsSpec.lean). The kernel forms the same
  features on the host, flattens (b, s) to 32768 rows, transposes the two weight matrices (Proof/Staged.lean), and a
  pipelined region multiplies 1024 rows at a time by both matrices (Proof/Tile.lean: at the ideal values each product
  into a zero accumulator is the plain sum over the contracted coordinate, and the changes of float format are the
  identity). Every tile is the restriction of one function of the region's three input arrays, the 32 tiles cover
  the output, and the closing reshape puts row 4096·b + s at (b, s) (Proof/Region.lean). No law of the extended reals
  is used beyond re-indexing the sums: the two programs agree on every input, finite or not.

  The three frames are the generated ones (the reference's is its run with the result dropped); the idealization
  rewrote nothing, so `preserves` is trivial.
-/
import proofs.«157197_j65481071403168_1_alg».proof.Defs
import proofs.«157197_j65481071403168_1_alg».proof.Proof.Gen.Kernel
import proofs.«157197_j65481071403168_1_alg».proof.Proof.Gen.Kernel.Skeleton
import proofs.«157197_j65481071403168_1_alg».proof.Proof.Gen.Kernel.Launch
import proofs.«157197_j65481071403168_1_alg».proof.Proof.Gen.Kernel.Points
import proofs.«157197_j65481071403168_1_alg».proof.Proof.Gen.Kernel.Frame
import proofs.«157197_j65481071403168_1_alg».proof.Proof.Gen.KernelIdeal
import proofs.«157197_j65481071403168_1_alg».proof.Proof.Gen.KernelIdeal.Skeleton
import proofs.«157197_j65481071403168_1_alg».proof.Proof.Gen.KernelIdeal.Launch
import proofs.«157197_j65481071403168_1_alg».proof.Proof.Gen.KernelIdeal.Points
import proofs.«157197_j65481071403168_1_alg».proof.Proof.Gen.KernelIdeal.Frame
import proofs.«157197_j65481071403168_1_alg».proof.Proof.Gen.ReferenceIdeal
import proofs.«157197_j65481071403168_1_alg».proof.Proof.Gen.Pre_finite_inputs
import proofs.«157197_j65481071403168_1_alg».proof.Proof.Gen.ReferenceIdeal.Run
import proofs.«157197_j65481071403168_1_alg».proof.Proof.Gen.ReferenceIdeal.Read
import proofs.«157197_j65481071403168_1_alg».proof.Proof.RefIsSpec
import proofs.«157197_j65481071403168_1_alg».proof.Proof.Region
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the block's function of the four arguments in their result. -/
theorem algebraic : Cert.algebraic_KernelIdeal_ReferenceIdeal := by
  intro m ρ m' ρ' _ hagree
  refine ⟨fun c => Cert.RotFfn.out (Cert.RotFfn.Staged.tok m c) (Cert.RotFfn.Staged.ang m c)
    (Cert.RotFfn.Staged.up m c) (Cert.RotFfn.Staged.down m c), Cert.RotFfn.Region.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v8_eq _ _ _ _).trans ((Cert.RotFfn.Ref.result_eq _ _ _ _).trans ?_)
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
